-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x256x256 : Shape := ⟨4, ![8, 64, 256, 256]⟩
abbrev S_ : Shape := ⟨0, ![]⟩

class Facts : Prop where
  bcast_S_S8x64x256x256 : S_.BroadcastsInDim S8x64x256x256 (![] : Fin 0 → Fin S8x64x256x256.rank)
  reducesTo_S8x64x256x256_S_d0_1_2_3 : S8x64x256x256.ReducesTo [0, 1, 2, 3] S_
  h_S_ : 0 < S_.numel

variable [Facts]

def fn {F : FTy → Type} [FloatOps F] (main_arg0 : FVec F S8x64x256x256 .f32) : IVec S_ 1 :=
  let main_v0 : FVec F S8x64x256x256 .f32 := Host.absf main_arg0
  let main_cst : FVec F S_ .f32 := constant S_ .f32 0x7F800000#32
  let main_v1 : FVec F S8x64x256x256 .f32 := broadcastInDim S8x64x256x256 ![] bcast_S_S8x64x256x256 main_cst
  let main_v2 : IVec S8x64x256x256 1 := cmpf .olt main_v0 main_v1
  let main_c : IVec S_ 1 := constantI S_ 1 1#1
  let main_v3 : IVec S_ 1 := (fun x v => Host.reduce IntOp.andi x v reducesTo_S8x64x256x256_S_d0_1_2_3 h_S_) main_v2 main_c
  main_v3
-- ==== Kernel.lean ====
abbrev S8x64x256x256 : Shape := ⟨4, ![8, 64, 256, 256]⟩
abbrev S512x256x256 : Shape := ⟨3, ![512, 256, 256]⟩
abbrev S512x512x512 : Shape := ⟨3, ![512, 512, 512]⟩
abbrev S16x64x256 : Shape := ⟨3, ![16, 64, 256]⟩
abbrev S16x128x512 : Shape := ⟨3, ![16, 128, 512]⟩
abbrev S16x64x1x256 : Shape := ⟨4, ![16, 64, 1, 256]⟩
abbrev S16x64x2x256 : Shape := ⟨4, ![16, 64, 2, 256]⟩
abbrev S16x128x256 : Shape := ⟨3, ![16, 128, 256]⟩
abbrev S16x128x256x1 : Shape := ⟨4, ![16, 128, 256, 1]⟩
abbrev S16x128x256x2 : Shape := ⟨4, ![16, 128, 256, 2]⟩
abbrev S8x64x512x512 : Shape := ⟨4, ![8, 64, 512, 512]⟩

abbrev nBuf : Space → Nat
  | .hbm => 4
  | .vmem => 4
  | .smem => 0
  | _ => 0

abbrev bufTy : (tb : Table) → Fin (tcTables nBuf tb) → BufTy
  | .hbm, ⟨0, _⟩ => ⟨S8x64x256x256, .f32⟩
  | .hbm, ⟨1, _⟩ => ⟨S512x256x256, .f32⟩
  | .hbm, ⟨2, _⟩ => ⟨S512x512x512, .f32⟩
  | .hbm, ⟨3, _⟩ => ⟨S8x64x512x512, .f32⟩
  | .local _ .vmem, ⟨0, _⟩ => ⟨S16x64x256, .f32⟩
  | .local _ .vmem, ⟨1, _⟩ => ⟨S16x64x256, .f32⟩
  | .local _ .vmem, ⟨2, _⟩ => ⟨S16x128x512, .f32⟩
  | .local _ .vmem, ⟨3, _⟩ => ⟨S16x128x512, .f32⟩
  | _, _ => ⟨S8x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S16x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  shapeCasts_S8x64x256x256_S512x256x256 : S8x64x256x256.ShapeCasts S512x256x256
  inb_S16x64x256_S16x64x256_0_0_0 : ∀ a, (![0, 0, 0] : Fin 3 → Nat) a + S16x64x256.size a ≤ S16x64x256.size a
  h_S16x64x256 : 0 < S16x64x256.numel
  shapeCasts_S16x64x256_S16x64x256 : S16x64x256.ShapeCasts S16x64x256
  shapeCasts_S16x64x256_S16x64x1x256 : S16x64x256.ShapeCasts S16x64x1x256
  shapeCasts_S16x64x1x256_S16x64x1x256 : S16x64x1x256.ShapeCasts S16x64x1x256
  broadcasts_S16x64x1x256_S16x64x2x256 : S16x64x1x256.Broadcasts S16x64x2x256
  shapeCasts_S16x64x2x256_S16x128x256 : S16x64x2x256.ShapeCasts S16x128x256
  shapeCasts_S16x128x256_S16x128x256x1 : S16x128x256.ShapeCasts S16x128x256x1
  shapeCasts_S16x128x256x1_S16x128x256x1 : S16x128x256x1.ShapeCasts S16x128x256x1
  broadcasts_S16x128x256x1_S16x128x256x2 : S16x128x256x1.Broadcasts S16x128x256x2
  shapeCasts_S16x128x256x2_S16x128x512 : S16x128x256x2.ShapeCasts S16x128x512
  inb_S16x128x512_S16x128x512_0_0_0 : ∀ a, (![0, 0, 0] : Fin 3 → Nat) a + S16x128x512.size a ≤ S16x128x512.size a
  h_S16x128x512 : 0 < S16x128x512.numel
  shapeCasts_S512x512x512_S8x64x512x512 : S512x512x512.ShapeCasts S8x64x512x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x64x256.size a ≤ S512x256x256.size a
  hwx0_0 : ∀ i : grid0.Coords, EltTy.bits .f32 = 32 ∨ (Rect.block (s := S512x256x256) S16x64x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x128x512.size a ≤ S512x512x512.size a
  hwx0_1 : ∀ i : grid0.Coords, EltTy.bits .f32 = 32 ∨ (Rect.block (s := S512x512x512) S16x128x512.size (cc0_transform_1 i) (hinb0_1 i)).WholeWords (EltTy.packing .f32)

variable [Facts₀]

abbrev win0_0 : Pipeline.Window sig grid0 :=
  Pipeline.Window.ofSpec (Memref.whole main_v0) S16x64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x128x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x64x256x256 : Shape := ⟨4, ![8, 64, 256, 256]⟩
abbrev S8x64x256x2x256 : Shape := ⟨5, ![8, 64, 256, 2, 256]⟩
abbrev S8x64x512x256 : Shape := ⟨4, ![8, 64, 512, 256]⟩
abbrev S8x64x512x256x2 : Shape := ⟨5, ![8, 64, 512, 256, 2]⟩
abbrev S8x64x512x512 : Shape := ⟨4, ![8, 64, 512, 512]⟩

abbrev nBuf : Space → Nat
  | .hbm => 5
  | .vmem => 0
  | .smem => 0
  | _ => 0

abbrev bufTy : (tb : Table) → Fin (tcTables nBuf tb) → BufTy
  | .hbm, ⟨0, _⟩ => ⟨S8x64x256x256, .f32⟩
  | .hbm, ⟨1, _⟩ => ⟨S8x64x256x2x256, .f32⟩
  | .hbm, ⟨2, _⟩ => ⟨S8x64x512x256, .f32⟩
  | .hbm, ⟨3, _⟩ => ⟨S8x64x512x256x2, .f32⟩
  | .hbm, ⟨4, _⟩ => ⟨S8x64x512x512, .f32⟩
  | _, _ => ⟨S8x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩

abbrev nD : Nat := 1
abbrev τ : Topo := Topo.v7x

variable {F : FTy → Type} [FloatOps F]

class Facts₀ : Prop where
  bcast_S8x64x256x256_S8x64x256x2x256_0_1_2_4 : S8x64x256x256.BroadcastsInDim S8x64x256x2x256 (![0, 1, 2, 4] : Fin 4 → Fin S8x64x256x2x256.rank)
  shapeCasts_S8x64x256x2x256_S8x64x512x256 : S8x64x256x2x256.ShapeCasts S8x64x512x256
  bcast_S8x64x512x256_S8x64x512x256x2_0_1_2_3 : S8x64x512x256.BroadcastsInDim S8x64x512x256x2 (![0, 1, 2, 3] : Fin 4 → Fin S8x64x512x256x2.rank)
  shapeCasts_S8x64x512x256x2_S8x64x512x512 : S8x64x512x256x2.ShapeCasts S8x64x512x512

variable [Facts₀]

class Facts : Prop extends Facts₀ where

variable [Facts]
-- ==== Proof.Nearest.lean ====
/-
  Nearest-neighbour doubling of the two trailing axes: the result at (…, r, l) is the argument at (…, r / 2, l / 2).

  Three spellings of that one function meet in this certificate, and each is read here at an index, one layout
  operation at a time (a shape cast keeps the row-major position; a broadcast reads coordinate 0 on a unit axis):

  * on a block [16, 64, 256]: insert a unit axis behind the rows, broadcast it to 2 and fold it into the rows
    (row r of the 128 comes from row r / 2, since r = 2 (r / 2) + r % 2), then the same behind the lanes
    (lane l of the 512 comes from lane l / 2): the block [16, 128, 512] at (b, r, l) is the block at (b, r / 2, l / 2);
  * on the whole array [8, 64, 256, 256]: the same two steps as broadcasts into a new axis of extent 2 followed by
    reshapes that fold the new axis into its left neighbour;
  * the rank-3 form between two reshapes that merge and split the two leading axes: position (b · 64 + c, r, l) of
    [512, ·, ·] is position (b, c, r, l) of [8, 64, ·, ·], so doubling commutes with the merge.
-/
import Idealize.ShloMosaic.Lib.ValueIdx
import Idealize.ShloMosaic.Lib.Pipeline.Value

noncomputable section

namespace Cert.Nearest

open Idealize.ShloMosaic Idealize.ShloMosaic.ValueIdx

variable {α : Type}

/-! ## Shapes -/

abbrev A4 : Shape := ⟨4, ![8, 64, 256, 256]⟩
abbrev R4 : Shape := ⟨4, ![8, 64, 512, 512]⟩
abbrev A3 : Shape := ⟨3, ![512, 256, 256]⟩
abbrev R3 : Shape := ⟨3, ![512, 512, 512]⟩
abbrev Ab : Shape := ⟨3, ![16, 64, 256]⟩
abbrev Rb : Shape := ⟨3, ![16, 128, 512]⟩
abbrev Ab1 : Shape := ⟨4, ![16, 64, 1, 256]⟩
abbrev Ab2 : Shape := ⟨4, ![16, 64, 2, 256]⟩
abbrev Mb : Shape := ⟨3, ![16, 128, 256]⟩
abbrev Mb1 : Shape := ⟨4, ![16, 128, 256, 1]⟩
abbrev Mb2 : Shape := ⟨4, ![16, 128, 256, 2]⟩
abbrev A5 : Shape := ⟨5, ![8, 64, 256, 2, 256]⟩
abbrev M4 : Shape := ⟨4, ![8, 64, 512, 256]⟩
abbrev M5 : Shape := ⟨5, ![8, 64, 512, 256, 2]⟩

/-! ## The function, at the three shapes it is met at -/

/-- Rows and lanes doubled, on [8, 64, 256, 256]. -/
def up4 (x : A4.Idx → α) : R4.Idx → α := fun i =>
  x (ix4 ⟨(i 0).val, (i 0).isLt⟩ ⟨(i 1).val, (i 1).isLt⟩
    ⟨(i 2).val / 2, by have h : (i 2).val < 512 := (i 2).isLt; omega⟩
    ⟨(i 3).val / 2, by have h : (i 3).val < 512 := (i 3).isLt; omega⟩)

/-- Rows and lanes doubled, on [512, 256, 256]. -/
def up3 (x : A3.Idx → α) : R3.Idx → α := fun i =>
  x (ix3 ⟨(i 0).val, (i 0).isLt⟩
    ⟨(i 1).val / 2, by have h : (i 1).val < 512 := (i 1).isLt; omega⟩
    ⟨(i 2).val / 2, by have h : (i 2).val < 512 := (i 2).isLt; omega⟩)

/-- Rows and lanes doubled, on a block [16, 64, 256]. -/
def upB (x : Ab.Idx → α) : Rb.Idx → α := fun i =>
  x (ix3 ⟨(i 0).val, (i 0).isLt⟩
    ⟨(i 1).val / 2, by have h : (i 1).val < 128 := (i 1).isLt; omega⟩
    ⟨(i 2).val / 2, by have h : (i 2).val < 512 := (i 2).isLt; omega⟩)

/-! ## On a block: unit axis, broadcast, fold — twice -/

/-- The block's chain of shape casts and broadcasts is the doubling: at (b, r, l) it reads (b, r / 2, l / 2). -/
theorem block_chain (v : Ab.Idx → α)
    (h1 : Ab.ShapeCasts Ab) (h2 : Ab.ShapeCasts Ab1) (h3 : Ab1.ShapeCasts Ab1) (h4 : Ab1.Broadcasts Ab2)
    (h5 : Ab2.ShapeCasts Mb) (h6 : Mb.ShapeCasts Mb1) (h7 : Mb1.ShapeCasts Mb1) (h8 : Mb1.Broadcasts Mb2)
    (h9 : Mb2.ShapeCasts Rb) :
    shapeCast Rb (broadcastTo Mb2 (shapeCast Mb1 (shapeCast Mb1 (shapeCast Mb (broadcastTo Ab2
      (shapeCast Ab1 (shapeCast Ab1 (shapeCast Ab v h1) h2) h3) h4) h5) h6) h7) h8) h9 = upB v := by
  funext j
  have hb : (j 0).val < 16 := (j 0).isLt
  have hr : (j 1).val < 128 := (j 1).isLt
  have hl : (j 2).val < 512 := (j 2).isLt
  simp only [shapeCast_self]
  -- [16, 128, 512] at (b, r, l) has the position of [16, 128, 256, 2] at (b, r, l / 2, l % 2)
  refine (shapeCast_apply _ h9 j (ix4 ⟨(j 0).val, hb⟩ ⟨(j 1).val, hr⟩ ⟨(j 2).val / 2, by omega⟩ ⟨(j 2).val % 2, by omega⟩)
    (by rw [Shape.rowMajor_val_four, Shape.rowMajor_val_three]
        show (((j 0).val * 128 + (j 1).val) * 256 + (j 2).val / 2) * 2 + (j 2).val % 2
          = ((j 0).val * 128 + (j 1).val) * 512 + (j 2).val
        omega)).trans ?_
  -- the broadcast over the last axis reads its unit axis at 0
  refine (broadcastTo_apply _ h8 _ (ix4 ⟨(j 0).val, hb⟩ ⟨(j 1).val, hr⟩ ⟨(j 2).val / 2, by omega⟩ ⟨0, Nat.one_pos⟩)
    (fun a => match a with | ⟨0, _⟩ => rfl | ⟨1, _⟩ => rfl | ⟨2, _⟩ => rfl | ⟨3, _⟩ => rfl)).trans ?_
  -- the trailing unit axis dropped
  refine (shapeCast_apply _ h6 _ (ix3 ⟨(j 0).val, hb⟩ ⟨(j 1).val, hr⟩ ⟨(j 2).val / 2, by omega⟩)
    (by rw [Shape.rowMajor_val_three, Shape.rowMajor_val_four]
        show ((j 0).val * 128 + (j 1).val) * 256 + (j 2).val / 2
          = (((j 0).val * 128 + (j 1).val) * 256 + (j 2).val / 2) * 1 + 0
        omega)).trans ?_
  -- [16, 128, 256] at (b, r, w) has the position of [16, 64, 2, 256] at (b, r / 2, r % 2, w)
  refine (shapeCast_apply _ h5 _ (ix4 ⟨(j 0).val, hb⟩ ⟨(j 1).val / 2, by omega⟩ ⟨(j 1).val % 2, by omega⟩ ⟨(j 2).val / 2, by omega⟩)
    (by rw [Shape.rowMajor_val_four, Shape.rowMajor_val_three]
        show (((j 0).val * 64 + (j 1).val / 2) * 2 + (j 1).val % 2) * 256 + (j 2).val / 2
          = ((j 0).val * 128 + (j 1).val) * 256 + (j 2).val / 2
        omega)).trans ?_
  -- the broadcast over the inserted axis reads it at 0
  refine (broadcastTo_apply _ h4 _ (ix4 ⟨(j 0).val, hb⟩ ⟨(j 1).val / 2, by omega⟩ ⟨0, Nat.one_pos⟩ ⟨(j 2).val / 2, by omega⟩)
    (fun a => match a with | ⟨0, _⟩ => rfl | ⟨1, _⟩ => rfl | ⟨2, _⟩ => rfl | ⟨3, _⟩ => rfl)).trans ?_
  -- the inserted unit axis dropped
  exact shapeCast_apply _ h2 _ (ix3 ⟨(j 0).val, hb⟩ ⟨(j 1).val / 2, by omega⟩ ⟨(j 2).val / 2, by omega⟩)
    (by rw [Shape.rowMajor_val_three, Shape.rowMajor_val_four]
        show ((j 0).val * 64 + (j 1).val / 2) * 256 + (j 2).val / 2
          = (((j 0).val * 64 + (j 1).val / 2) * 1 + 0) * 256 + (j 2).val / 2
        omega)

/-! ## On the whole array: broadcast into a new axis, fold it — twice -/

/-- The two repeats, each a broadcast into a new axis of extent 2 and a reshape folding it into its left neighbour,
    are the doubling: at (b, c, r, l) they read (b, c, r / 2, l / 2). -/
theorem repeat_chain (x : A4.Idx → α) (h1 : A4.BroadcastsInDim A5 (![0, 1, 2, 4] : Fin 4 → Fin A5.rank)) (h2 : A5.ShapeCasts M4)
    (h3 : M4.BroadcastsInDim M5 (![0, 1, 2, 3] : Fin 4 → Fin M5.rank)) (h4 : M5.ShapeCasts R4) :
    shapeCast R4 (broadcastInDim M5 ![0, 1, 2, 3] h3 (shapeCast M4 (broadcastInDim A5 ![0, 1, 2, 4] h1 x) h2)) h4 = up4 x := by
  funext i
  have hb : (i 0).val < 8 := (i 0).isLt
  have hc : (i 1).val < 64 := (i 1).isLt
  have hr : (i 2).val < 512 := (i 2).isLt
  have hl : (i 3).val < 512 := (i 3).isLt
  -- [8, 64, 512, 512] at (b, c, r, l) has the position of [8, 64, 512, 256, 2] at (b, c, r, l / 2, l % 2)
  refine (shapeCast_apply _ h4 i (ix5 ⟨(i 0).val, hb⟩ ⟨(i 1).val, hc⟩ ⟨(i 2).val, hr⟩ ⟨(i 3).val / 2, by omega⟩ ⟨(i 3).val % 2, by omega⟩)
    (by rw [Shape.rowMajor_val_five, Shape.rowMajor_val_four]
        show ((((i 0).val * 64 + (i 1).val) * 512 + (i 2).val) * 256 + (i 3).val / 2) * 2 + (i 3).val % 2
          = (((i 0).val * 64 + (i 1).val) * 512 + (i 2).val) * 512 + (i 3).val
        omega)).trans ?_
  -- the broadcast into the new last axis forgets that coordinate
  refine (broadcastInDim_apply _ h3 _ _ (ix4 ⟨(i 0).val, hb⟩ ⟨(i 1).val, hc⟩ ⟨(i 2).val, hr⟩ ⟨(i 3).val / 2, by omega⟩)
    (fun a => match a with | ⟨0, _⟩ => rfl | ⟨1, _⟩ => rfl | ⟨2, _⟩ => rfl | ⟨3, _⟩ => rfl)).trans ?_
  -- [8, 64, 512, 256] at (b, c, r, w) has the position of [8, 64, 256, 2, 256] at (b, c, r / 2, r % 2, w)
  refine (shapeCast_apply _ h2 _ (ix5 ⟨(i 0).val, hb⟩ ⟨(i 1).val, hc⟩ ⟨(i 2).val / 2, by omega⟩ ⟨(i 2).val % 2, by omega⟩ ⟨(i 3).val / 2, by omega⟩)
    (by rw [Shape.rowMajor_val_five, Shape.rowMajor_val_four]
        show ((((i 0).val * 64 + (i 1).val) * 256 + (i 2).val / 2) * 2 + (i 2).val % 2) * 256 + (i 3).val / 2
          = (((i 0).val * 64 + (i 1).val) * 512 + (i 2).val) * 256 + (i 3).val / 2
        omega)).trans ?_
  -- the broadcast into the new axis behind the rows forgets that coordinate
  exact broadcastInDim_apply _ h1 _ _ (ix4 ⟨(i 0).val, hb⟩ ⟨(i 1).val, hc⟩ ⟨(i 2).val / 2, by omega⟩ ⟨(i 3).val / 2, by omega⟩)
    (fun a => match a with | ⟨0, _⟩ => rfl | ⟨1, _⟩ => rfl | ⟨2, _⟩ => rfl | ⟨3, _⟩ => rfl)

/-! ## Between the merge and the split of the two leading axes -/

/-- Doubling on [512, ·, ·] between the reshape that merges [8, 64] into 512 and the one that splits it again is doubling
    on [8, 64, ·, ·]: both reshapes keep the trailing coordinates and pair (b, c) with b · 64 + c. -/
theorem merged (x : A4.Idx → α) (hA : A4.ShapeCasts A3) (hB : R3.ShapeCasts R4) :
    shapeCast R4 (up3 (shapeCast A3 x hA)) hB = up4 x := by
  funext i
  have hb : (i 0).val < 8 := (i 0).isLt
  have hc : (i 1).val < 64 := (i 1).isLt
  have hr : (i 2).val < 512 := (i 2).isLt
  have hl : (i 3).val < 512 := (i 3).isLt
  refine (shapeCast_apply _ hB i (ix3 ⟨(i 0).val * 64 + (i 1).val, by omega⟩ ⟨(i 2).val, hr⟩ ⟨(i 3).val, hl⟩)
    (by rw [Shape.rowMajor_val_three, Shape.rowMajor_val_four]
        show (((i 0).val * 64 + (i 1).val) * 512 + (i 2).val) * 512 + (i 3).val
          = (((i 0).val * 64 + (i 1).val) * 512 + (i 2).val) * 512 + (i 3).val
        rfl)).trans ?_
  show shapeCast A3 x hA (ix3 ⟨(i 0).val * 64 + (i 1).val, _⟩ ⟨(i 2).val / 2, _⟩ ⟨(i 3).val / 2, _⟩) = _
  exact shapeCast_apply _ hA _ (ix4 ⟨(i 0).val, hb⟩ ⟨(i 1).val, hc⟩ ⟨(i 2).val / 2, by omega⟩ ⟨(i 3).val / 2, by omega⟩)
    (by rw [Shape.rowMajor_val_four, Shape.rowMajor_val_three]
        show (((i 0).val * 64 + (i 1).val) * 256 + (i 2).val / 2) * 256 + (i 3).val / 2
          = (((i 0).val * 64 + (i 1).val) * 256 + (i 2).val / 2) * 256 + (i 3).val / 2
        rfl)

end Cert.Nearest

end
-- ==== Proof.Reference.lean ====
/-
  The reference's run, with its result named: jnp.repeat along the rows and then along the lanes — each a broadcast
  into a new axis of extent 2 folded into its left neighbour — leaves the argument with rows and lanes doubled.
-/
import proofs.«175704_j29171417874896_1_alg».proof.Proof.Gen.ReferenceIdeal.Run
import proofs.«175704_j29171417874896_1_alg».proof.Proof.Nearest

noncomputable section

namespace Cert.ReferenceIdeal.Doubled

open Cert.ReferenceIdeal Idealize.ShloMosaic Idealize.ShloMosaic.TcCoe Idealize.SL.Sem

variable {F : FTy → Type} [FloatOps F]

/-- Every weakly fair execution of the reference terminates with its result at the doubling of its argument and
    the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v3) = Cert.Nearest.up4 (α := Elt F .f32) (m ((c.tc : Thread nD τ).loc main_arg0))
      ∧ r.2.mem ((c.tc : Thread nD τ).loc main_arg0) = m ((c.tc : Thread nD τ).loc main_arg0) :=
  (θ_run defs _ _).mono (fun _ h c => ⟨(h c).1.trans (Cert.Nearest.repeat_chain _ _ _ _ _), (h c).2⟩)
    (Cert.ReferenceIdeal.Value.run (F := F) m ρ)

end Cert.ReferenceIdeal.Doubled

end
-- ==== Proof.Region.lean ====
/-
  The region's output array after the run. Grid point t = (p, q) of the 32 × 4 grid takes block (p, q, 0) of the input
  [512, 256, 256] — 16 images by 64 rows by all 256 lanes — and writes block (p, q, 0) of the output [512, 512, 512] —
  the same 16 images, rows 128 q … 128 q + 127, all 512 lanes. The body stores the doubling of the block it loaded, so
  output entry (16 p + b, 128 q + r, l) is input entry (16 p + b, 64 q + r / 2, l / 2) = (·, (128 q + r) / 2, l / 2):
  every point writes a block of ONE function of the input array, its doubling, and the 128 output blocks tile the array.
-/
import proofs.«175704_j29171417874896_1_alg».proof.Proof.Gen.KernelIdeal.Frame
import proofs.«175704_j29171417874896_1_alg».proof.Proof.Nearest
import Idealize.ShloMosaic.Lib.Pipeline.Value

set_option maxRecDepth 16384

noncomputable section

namespace Cert.KernelIdeal.Doubled

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
variable (m : (ℓ : Loc nD τ sig) → Buf (Elt F) ℓ)

theorem offsets_zero : (![0, 0, 0] : Fin 3 → Nat) = fun _ => 0 := funext fun a => by fin_cases a <;> rfl

/-- What the body stores is the doubling of the block it loaded. -/
theorem stored_eq (x0 : Vec F S16x64x256 .f32) : k0_pay1 x0 = Cert.Nearest.upB (α := Elt F .f32) x0 := by
  unfold k0_pay1
  exact Cert.Nearest.block_chain (α := Elt F .f32) x0 _ _ _ _ _ _ _ _ _

/-- The two index maps, decided over the 128 points: input and output block move together on the image and row axes
    and stay at 0 on the lane axis. -/
theorem index_facts : ∀ t : Fin cfg0.N, win0_0.index t (0 : Fin 3) = win0_1.index t (0 : Fin 3)
    ∧ win0_0.index t (1 : Fin 3) = win0_1.index t (1 : Fin 3)
    ∧ win0_0.index t (2 : Fin 3) = 0
    ∧ win0_1.index t (2 : Fin 3) = 0 :=
  (by decide +kernel : ∀ t : Fin grid0.N, _)

/-- Every output block index (p, q, 0) is some point's. -/
theorem index_onto : ∀ (p : Fin 32) (q : Fin 4), ∃ t : Fin cfg0.N, win0_1.index t = ![p.val, q.val, 0] :=
  (by decide +kernel : ∀ (p : Fin 32) (q : Fin 4), ∃ t : Fin grid0.N, win0_1.index t = ![p.val, q.val, 0])

/-- What point t writes back is block t of the doubling of the input array as the region finds it. -/
theorem flushed_eq (c : Dev nD) (t : Fin cfg0.N) :
    (dats m 0 c).flushed 1 t
      = ((cfg0.win 1).blk t).view.read (Elt F) (Cert.Nearest.up3 (α := Elt F .f32) (V m c main_v0)) := by
  show (cfg0.win 1).cut (grid0.coords t) ((dats m 0 c).after 1 t) = _
  rw [after0_1]
  unfold out0_1
  rw [View.canon_unit_zero offsets_zero]
  simp only [View.ld_unit_zero (S := S16x64x256) offsets_zero]
  rw [stored_eq]
  obtain ⟨e0, e1, e2, e3⟩ := index_facts t
  funext j
  have hj0 : (j 0).val < 16 := (j 0).isLt
  have hj1 : (j 1).val < 128 := (j 1).isLt
  have hj2 : (j 2).val < 512 := (j 2).isLt
  show V m c main_v0 (((cfg0.win 0).blk t).view.emb
        (ix3 ⟨(j 0).val, hj0⟩ ⟨(j 1).val / 2, by omega⟩ ⟨(j 2).val / 2, by omega⟩))
      = V m c main_v0 (ix3 ⟨((((cfg0.win 1).blk t).view.emb j) 0).val, ((((cfg0.win 1).blk t).view.emb j) 0).isLt⟩
        ⟨((((cfg0.win 1).blk t).view.emb j) 1).val / 2, by have h : ((((cfg0.win 1).blk t).view.emb j) 1).val < 512 := ((((cfg0.win 1).blk t).view.emb j) 1).isLt; omega⟩
        ⟨((((cfg0.win 1).blk t).view.emb j) 2).val / 2, by have h : ((((cfg0.win 1).blk t).view.emb j) 2).val < 512 := ((((cfg0.win 1).blk t).view.emb j) 2).isLt; omega⟩)
  refine congrArg (V m c main_v0) (funext fun a => Fin.ext ?_)
  match a with
  | ⟨0, _⟩ =>
    show win0_0.index t (0 : Fin 3) * 16 + 1 * (j 0).val = win0_1.index t (0 : Fin 3) * 16 + 1 * (j 0).val
    omega
  | ⟨1, _⟩ =>
    show win0_0.index t (1 : Fin 3) * 64 + 1 * ((j 1).val / 2) = (win0_1.index t (1 : Fin 3) * 128 + 1 * (j 1).val) / 2
    omega
  | ⟨2, _⟩ =>
    show win0_0.index t (2 : Fin 3) * 256 + 1 * ((j 2).val / 2) = (win0_1.index t (2 : Fin 3) * 512 + 1 * (j 2).val) / 2
    omega

/-- An index of the output array is in point t's block iff each coordinate is in the block's range on its axis. -/
theorem mem_blk (t : Fin cfg0.N) (i : S512x512x512.Idx) :
    i ∈ ((cfg0.win 1).blk t).view.set ↔ ∀ a : Fin 3, win0_1.index t a * S16x128x512.size a ≤ (i a).val
      ∧ (i a).val < win0_1.index t a * S16x128x512.size a + S16x128x512.size a := by
  show i ∈ ((View.whole main_v1).slice (win0_1.rect t)).set ↔ _
  rw [View.set_slice_whole, Rect.mem_set_unit]
  exact Iff.rfl

/-- The output blocks tile the array: index (n, r, l) lies in the block of the point at (n / 16, r / 128, 0). -/
theorem covered (i : S512x512x512.Idx) :
    ∃ t : Fin cfg0.N, (cfg0.win 1).flush t = true ∧ i ∈ ((cfg0.win 1).blk t).view.set := by
  have hi0 : (i 0).val < 512 := (i 0).isLt
  have hi1 : (i 1).val < 512 := (i 1).isLt
  have hi2 : (i 2).val < 512 := (i 2).isLt
  obtain ⟨t, ht⟩ := index_onto ⟨(i 0).val / 16, by omega⟩ ⟨(i 1).val / 128, by omega⟩
  have q0 : win0_1.index t (0 : Fin 3) = (i 0).val / 16 := congrFun ht 0
  have q1 : win0_1.index t (1 : Fin 3) = (i 1).val / 128 := congrFun ht 1
  have q2 : win0_1.index t (2 : Fin 3) = 0 := congrFun ht 2
  refine ⟨t, flush0_1 t, ?_⟩
  rw [mem_blk]
  intro a
  match a with
  | ⟨0, _⟩ =>
    show win0_1.index t (0 : Fin 3) * 16 ≤ (i 0).val ∧ (i 0).val < win0_1.index t (0 : Fin 3) * 16 + 16
    omega
  | ⟨1, _⟩ =>
    show win0_1.index t (1 : Fin 3) * 128 ≤ (i 1).val ∧ (i 1).val < win0_1.index t (1 : Fin 3) * 128 + 128
    omega
  | ⟨2, _⟩ =>
    show win0_1.index t (2 : Fin 3) * 512 ≤ (i 2).val ∧ (i 2).val < win0_1.index t (2 : Fin 3) * 512 + 512
    omega

/-- The output array after the run is the doubling of the input array as the region finds it. -/
theorem array_eq (c : Dev nD) :
    (dats m 0 c).arrAt 1 cfg0.N = Cert.Nearest.up3 (α := Elt F .f32) (V m c main_v0) :=
  (dats m 0 c).arrAt_eq_of_cover 1 (Cert.Nearest.up3 (α := Elt F .f32) (V m c main_v0)) (fun t _ => flushed_eq m c t) covered

end Cert.KernelIdeal.Doubled

end
-- ==== Proof.Program.lean ====
/-
  The whole program around the region: @main merges the argument's two leading axes [8, 64] into 512 before the
  region and splits the region's output back afterwards. Both reshapes keep the trailing coordinates, so the result is
  the doubling of the argument itself.
-/
import proofs.«175704_j29171417874896_1_alg».proof.Proof.Region
import Idealize.ShloMosaic.Lib.StableHlo.Run

set_option maxRecDepth 16384

noncomputable section

namespace Cert.KernelIdeal.Doubled

open Cert.KernelIdeal Cert.KernelIdeal.Gen Idealize.ShloMosaic Idealize.ShloMosaic.TcCoe Idealize.SL.Sem
open Idealize.ShloMosaic.StableHlo
open Idealize.ShloMosaic.Pipeline (Dat)

variable {F : FTy → Type} [FloatOps F]
variable (m : (ℓ : Loc nD τ sig) → Buf (Elt F) ℓ) (ρ : Dev nD → PrngReg)

/-- The region finds in its input array the argument with its two leading axes merged. -/
theorem input_eq (c : Dev nD) :
    (V m c main_v0 : S512x256x256.Idx → Elt F .f32)
      = shapeCast S512x256x256 (m ((c : Thread nD τ).loc main_arg0)) shapeCasts_S8x64x256x256_S512x256x256 := by
  show StableHlo.after hostOps0 (fun b => m (c, b)) (Proc.devRef .tc main_v0) = _
  after_results
  rfl

/-- The program's result: the region's output array with its leading axis split, which is the doubling of the argument. -/
theorem result_eq (c : Dev nD) :
    (Pipeline.afterTail₀ cfgs (dats m) 0 (V0 m) [hostOps1] c main_v2 : S8x64x512x512.Idx → Elt F .f32)
      = Cert.Nearest.up4 (α := Elt F .f32) (m ((c : Thread nD τ).loc main_arg0)) := by
  unfold Pipeline.afterTail₀
  show StableHlo.after hostOps1 _ (Proc.devRef .tc main_v2) = _
  after_results
  have hw : (Pipeline.withArrays spec0 c (V0 m c) (fun w => (dats m 0 c).arrAt w cfg0.N) (Proc.devRef .tc main_v1)
        : S512x512x512.Idx → Elt F .f32) = Cert.Nearest.up3 (α := Elt F .f32) (V m c main_v0) :=
    (Pipeline.withArrays_arr spec0 launch0.win.arr_inj c _ _ 1).trans (array_eq m c)
  show shapeCast S8x64x512x512
      (Pipeline.withArrays spec0 c (V0 m c) (fun w => (dats m 0 c).arrAt w cfg0.N) (Proc.devRef .tc main_v1))
      shapeCasts_S512x512x512_S8x64x512x512 = _
  rw [hw, input_eq]
  exact Cert.Nearest.merged (α := Elt F .f32) _ _ _

/-- Every weakly fair execution of the kernel's program terminates with its result at the doubling of its argument and
    the argument unchanged. -/
theorem run : θ_run defs (onTc (τ := τ) (main (F := F))) ⟨m, fun _ => 0, ρ⟩ fun r => ∀ c : Dev nD,
      r.2.mem ((c.tc : Thread nD τ).loc main_v2) = Cert.Nearest.up4 (α := Elt F .f32) (m ((c.tc : Thread nD τ).loc main_arg0))
      ∧ r.2.mem ((c.tc : Thread nD τ).loc main_arg0) = m ((c.tc : Thread nD τ).loc main_arg0) :=
  (θ_run defs _ _).mono (fun r h c =>
      ⟨((h c).2 main_v2 (Pipeline.mem_restRefs_of main_v2 (by decide) (by decide))).trans (result_eq m c),
       ((h c).2 main_arg0 (Pipeline.mem_restRefs_of main_arg0 (by decide) (by decide))).trans (W_main_arg0 m (dats m) c)⟩)
    (run_main m ρ)

end Cert.KernelIdeal.Doubled

end
-- ==== Proof.lean ====
/-
  Nearest-neighbour upsampling by 2 of the two trailing axes of x : f32[8, 64, 256, 256]: the result at
  (b, c, r, l) is x at (b, c, r / 2, l / 2).

  The kernel merges [8, 64] into 512 images, and on a 32 × 4 grid each point doubles the rows and lanes of one
  [16, 64, 256] block (unit axis, broadcast to 2, fold; twice) into a [16, 128, 512] block of the output, which is split
  back into [8, 64, 512, 512]. The reference repeats the rows and then the lanes of the whole array. Both move
  values and compute nothing, so both results are the same function of the argument on any values: the doubling
  (Proof/Nearest.lean), reached from the kernel through the region's output array (Proof/Region.lean) and the two
  reshapes around it (Proof/Program.lean), and from the reference through its run (Proof/Reference.lean).
  No law of arithmetic is used, so the precondition (finite inputs) is never opened.
-/
import proofs.«175704_j29171417874896_1_alg».proof.Defs
import proofs.«175704_j29171417874896_1_alg».proof.Proof.Gen.Kernel
import proofs.«175704_j29171417874896_1_alg».proof.Proof.Gen.Kernel.Frame
import proofs.«175704_j29171417874896_1_alg».proof.Proof.Gen.KernelIdeal
import proofs.«175704_j29171417874896_1_alg».proof.Proof.Gen.KernelIdeal.Frame
import proofs.«175704_j29171417874896_1_alg».proof.Proof.Gen.ReferenceIdeal
import proofs.«175704_j29171417874896_1_alg».proof.Proof.Gen.Pre_finite_inputs
import proofs.«175704_j29171417874896_1_alg».proof.Proof.Reference
import proofs.«175704_j29171417874896_1_alg».proof.Proof.Program
import Idealize.ShloMosaic.Adequacy
import Idealize.ShloMosaic.Init

noncomputable section

namespace Cert.Proof

open Idealize.ShloMosaic Idealize.SL.Sem

/-- The kernel's program runs and leaves its argument as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Doubled.run (F := Ideal) m ρ)

/-- The ideal pass rewrote nothing. -/
theorem preserves : Cert.preserves_Kernel_KernelIdeal := trivial

/-- From memories agreeing on the argument both programs end with the doubling of that argument. -/
theorem algebraic : Cert.algebraic_KernelIdeal_ReferenceIdeal := by
  intro m ρ m' ρ' _ hagree
  refine ⟨_, Cert.KernelIdeal.Doubled.run (F := Ideal) m ρ, ?_⟩
  refine (θ_run Cert.ReferenceIdeal.defs _ _).mono (fun _ h c => ⟨(h c).1.trans ?_, (h c).2⟩)
    (Cert.ReferenceIdeal.Doubled.run (F := Ideal) m' ρ')
  rw [hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
